-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 64
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  What both programs compute after the edge aggregation, and the dense product before it, as functions of whole
  arrays read index by index on the extended reals.

  THE DENSE PRODUCT. `h = x · W` for `x : [100000, 128]`, `W : [128, 128]`: `h (r, j) = ∑ k, x (r, k) · W (k, j)`.

  THE ROW NORMALISATION. With `a` the aggregated messages, `b` the bias, `x` the residual input, `γ`, `β` the scale and
  shift, row `r` of the result depends on row `r` of `a` and `x` only:
      y k   = max (a k + b k) 0 + x k                      (bias, rectifier, residual)
      μ     = (∑ k, y k) / 128                              (the row's mean)
      d k   = y k − μ                                      (the deviation)
      σ²    = (∑ k, d k · d k) / 128                        (the row's variance)
      out q = d q · (σ² + ε)^(−1/2) · γ q + β q
  with `0`, `128` and `ε` the values of the float words the programs carry (the same words in both programs, so none
  is ever evaluated). No law of the extended reals is used beyond reading both programs as this one expression.
-/
import Idealize.ShloMosaic.PureOps.Ideal
import Idealize.ShloMosaic.Lib.ValueIdx

noncomputable section

open scoped BigOperators

namespace Cert.Gcn

open Idealize.ShloMosaic Idealize.ShloMosaic.ValueIdx

/-- The node features' shape, the weight's, and a feature vector's. -/
abbrev Nodes : Shape := ⟨2, ![100000, 128]⟩
abbrev Wt : Shape := ⟨2, ![128, 128]⟩
abbrev Feat : Shape := ⟨1, ![128]⟩

/-! ## The dense product -/

/-- `(x · W) (r, j) = ∑ k, x (r, k) · W (k, j)`. -/
def matProdAt (x : Nodes.Idx → EReal) (w : Wt.Idx → EReal) (r : Fin 100000) (j : Fin 128) : EReal :=
  ∑ k : Fin 128, x (ix2 r k) * w (ix2 k j)

/-- The product as a whole array. -/
def matProd (x : Nodes.Idx → EReal) (w : Wt.Idx → EReal) : Nodes.Idx → EReal :=
  fun i => matProdAt x w (i 0) (i 1)

/-! ## One row, normalised -/

/-- Bias, rectifier and residual on one row: `y k = max (a k + b k) 0 + x k`. -/
def rowY (a x b : Fin 128 → EReal) (k : Fin 128) : EReal :=
  max (a k + b k) (Ideal.ofBits .f32 0x00000000#32) + x k

/-- A row's mean: its sum divided by the width `128`. -/
def rowMean (y : Fin 128 → EReal) : EReal :=
  Ideal.div (∑ k : Fin 128, y k) (Ideal.ofBits .f32 0x43000000#32)

/-- A row's deviation from its mean. -/
def rowDev (y : Fin 128 → EReal) (k : Fin 128) : EReal := y k - rowMean y

/-- A row's variance: the mean of the squared deviations. -/
def rowVar (y : Fin 128 → EReal) : EReal := rowMean fun k => rowDev y k * rowDev y k

/-- The normalised row at lane `q`, scaled by `g` and shifted by `s`. -/
def rowOut (a x b : Fin 128 → EReal) (g s : EReal) (q : Fin 128) : EReal :=
  rowDev (rowY a x b) q * Ideal.rsqrt (rowVar (rowY a x b) + Ideal.ofBits .f32 0x322BCC77#32) * g + s

/-- The whole result: row `r` of `a` and `x` normalised, lane `q` scaled and shifted by `γ q`, `β q`. -/
def layerNorm (a x : Nodes.Idx → EReal) (b g s : Feat.Idx → EReal) : Nodes.Idx → EReal :=
  fun i => rowOut (fun k => a (ix2 (i 0) k)) (fun k => x (ix2 (i 0) k)) (fun k => b (ix1 k)) (g (ix1 (i 1))) (s (ix1 (i 1))) (i 1)

end Cert.Gcn

end
-- ==== Proof.RefValue.lean ====
/-
  The reference's result as ONE expression of its arguments: the row normalisation (Proof/Spec.lean `Gcn.layerNorm`) of
  the edge aggregation of the dense product `x · W`.

  The reference's @main is read one operation at a time. Three parts:
  • its `dot_general` of `x` and `W`, read at `(r, j)`, is `∑ k, x (r, k) · W (k, j)`: `Gcn.matProd`;
  • the edge aggregation — gather the product's rows at the edges' sources, scale each by its edge's weight, sum
    into the edges' targets — depends on the product `h` and on the edge list only. It is named as ONE function
    `aggOf h e`, over any float family, and never opened: the kernel's program applies the same operations to its own
    product, so only the products have to agree;
  • everything after the aggregation works on one row at a time: bias, rectifier, residual (`y`), the row's mean, the
    deviations, the variance, the scaled and shifted quotient. Each stage is read at `(r, k)` in turn and is the
    matching definition of Proof/Spec.lean; the host's sums start from the zero word, which is `0`.
-/
import proofs.«107247_j75290776699105_1_alg».proof.Proof.RefRead
import proofs.«107247_j75290776699105_1_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.StableHlo Idealize.ShloMosaic.ValueIdx Cert.Gcn

/-! ## The edge aggregation, as one function of the dense product and the edge list -/

section Agg
variable {F : FTy → Type} [FloatOps F]

/-- Gather the rows of `h` at the edges' sources, scale row `e` by edge `e`'s weight, and sum the rows into the edges'
    targets, starting from zero; sources, targets and weights are the reference's own stages of the edge list. -/
def aggOf (h : (⟨S100000x128, .f32⟩ : BufTy).Contents (Elt F)) (e : (⟨S2x600000, .i32⟩ : BufTy).Contents (Elt F)) :
    (⟨S100000x128, .f32⟩ : BufTy).Contents (Elt F) :=
  Host.scatterAdd scatter_S100000x128_S700000x1_S700000x128_1_0_0_1 (val_main_v41 (F := F)) (val_main_v42 (F := F) e)
    (mulf (Host.gather gather_S100000x128_S700000x1_S700000x128_1_0_n_n_0_1_1128 h (val_main_v36 (F := F) e)) (val_main_v39 (F := F) e))

/-- The reference's aggregation stage is `aggOf` of its product stage. -/
theorem agg_eq (x0 : (⟨S100000x128, .f32⟩ : BufTy).Contents (Elt F)) (x1 : (⟨S2x600000, .i32⟩ : BufTy).Contents (Elt F))
    (x2 : (⟨S128x128, .f32⟩ : BufTy).Contents (Elt F)) :
    val_main_v43 (F := F) x0 x1 x2 = aggOf (val_main_v30 (F := F) x0 x2) x1 := rfl

end Agg

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-! ## The dense product -/

/-- The host's product read at `(r, j)` sums `x (r, k) · W (k, j)` over `k`. -/
theorem dense_eq : val_main_v30 (F := Ideal) x0 x2 = matProd x0 x2 := by
  funext i
  rw [val_main_v30_apply]
  unfold matProd matProdAt
  refine Finset.sum_congr rfl fun k _ => ?_
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-! ## The row stages -/

/-- A host sum starts from the zero word, which is `0`. -/
theorem zero_word_add (s : EReal) : (FloatOps.ofBits (F := Ideal) .f32 0x00000000#32 : EReal) + s = s := by
  show Ideal.ofBits .f32 0x00000000#32 + s = s
  rw [Ideal.ofBits_zero_f32, zero_add]

/-- Bias, rectifier, residual at `(r, k)`: the bias is read at lane `k` through its two broadcasts. -/
theorem y_eq (r : Fin 100000) (k : Fin 128) :
    val_main_v48 (F := Ideal) x0 x1 x2 x3 (ix2 r k)
      = rowY (fun k => val_main_v43 (F := Ideal) x0 x1 x2 (ix2 r k)) (fun k => x0 (ix2 r k)) (fun k => x3 (ix1 k)) k := by
  rw [val_main_v48_apply, val_main_v47_apply, val_main_v46_apply, val_main_v45_apply, val_main_v44_apply,
    val_main_call1_v0_apply, val_main_call1_cst_apply]
  have e : idx_main_v44 (idx_main_v45 (ix2 r k)) = ix1 k := funext fun a => Fin.ext (by match a with | ⟨0, _⟩ => rfl)
  rw [e]
  rfl

/-- The row's mean, kept as a column: the sum over the lanes from the zero word, divided by the width. -/
theorem mean_eq (r : Fin 100000) (u : Fin 1) :
    val_main_v52 (F := Ideal) x0 x1 x2 x3 (ix2 r u) = rowMean (fun k => val_main_v48 (F := Ideal) x0 x1 x2 x3 (ix2 r k)) := by
  rw [val_main_v52_apply, val_main_v50_apply, val_main_v49_apply, val_main_v51_apply, val_main_cst_10_apply, val_main_cst_9_apply]
  unfold rowMean
  exact congrArg₂ Ideal.div ((zero_word_add _).trans (Finset.sum_congr rfl fun k _ => congrArg _ (funext fun a => Fin.ext (by
    match a with | ⟨0, _⟩ => rfl | ⟨1, _⟩ => rfl)))) rfl

/-- The deviation at `(r, k)`, the mean read back over the lanes (the stage squared for the variance). -/
theorem dev_eq (r : Fin 100000) (k : Fin 128) :
    val_main_v54 (F := Ideal) x0 x1 x2 x3 (ix2 r k) = rowDev (fun k => val_main_v48 (F := Ideal) x0 x1 x2 x3 (ix2 r k)) k := by
  rw [val_main_v54_apply, val_main_v53_apply]
  have e : idx_main_v53 (ix2 r k) = ix2 r (0 : Fin 1) := funext fun a => Fin.ext (by match a with | ⟨0, _⟩ => rfl | ⟨1, _⟩ => rfl)
  rw [e, mean_eq]
  rfl

/-- The same deviation, as the stage the result multiplies. -/
theorem dev_eq' (r : Fin 100000) (k : Fin 128) :
    val_main_v61 (F := Ideal) x0 x1 x2 x3 (ix2 r k) = rowDev (fun k => val_main_v48 (F := Ideal) x0 x1 x2 x3 (ix2 r k)) k := by
  rw [val_main_v61_apply, val_main_v60_apply]
  have e : idx_main_v60 (ix2 r k) = ix2 r (0 : Fin 1) := funext fun a => Fin.ext (by match a with | ⟨0, _⟩ => rfl | ⟨1, _⟩ => rfl)
  rw [e, mean_eq]
  rfl

/-- The row's variance, kept as a column: the mean of the squared deviations. -/
theorem var_eq (r : Fin 100000) (u : Fin 1) :
    val_main_v59 (F := Ideal) x0 x1 x2 x3 (ix2 r u) = rowVar (fun k => val_main_v48 (F := Ideal) x0 x1 x2 x3 (ix2 r k)) := by
  rw [val_main_v59_apply, val_main_v57_apply, val_main_v56_apply, val_main_v58_apply, val_main_cst_12_apply, val_main_cst_11_apply]
  unfold rowVar rowMean
  refine congrArg₂ Ideal.div ((zero_word_add _).trans (Finset.sum_congr rfl fun k _ => ?_)) rfl
  have e : idx_main_v56 (idx_main_v57 (ix2 r u)) k = ix2 r k := funext fun a => Fin.ext (by match a with | ⟨0, _⟩ => rfl | ⟨1, _⟩ => rfl)
  rw [e, val_main_v55_apply, dev_eq]
  rfl

/-! ## The result -/

/-- The reference's last stage is the row normalisation of its aggregation stage. -/
theorem tail_eq :
    val_main_v72 (F := Ideal) x0 x1 x2 x3 x4 x5 = layerNorm (val_main_v43 (F := Ideal) x0 x1 x2) x0 x3 x4 x5 := by
  funext i
  obtain ⟨r, q, rfl⟩ : ∃ (r : Fin 100000) (q : Fin 128), i = ix2 r q := ⟨i 0, i 1, eq_ix2 i⟩
  rw [val_main_v72_apply, val_main_v69_apply, val_main_v66_apply, val_main_v65_apply, val_main_v64_apply, val_main_v63_apply,
    val_main_v62_apply, val_main_cst_13_apply, val_main_v68_apply, val_main_v67_apply, val_main_v71_apply, val_main_v70_apply]
  have e65 : idx_main_v65 (ix2 r q) = ix2 r (0 : Fin 1) := funext fun a => Fin.ext (by match a with | ⟨0, _⟩ => rfl | ⟨1, _⟩ => rfl)
  have e4 : idx_main_v67 (idx_main_v68 (ix2 r q)) = ix1 q := funext fun a => Fin.ext (by match a with | ⟨0, _⟩ => rfl)
  have e5 : idx_main_v70 (idx_main_v71 (ix2 r q)) = ix1 q := funext fun a => Fin.ext (by match a with | ⟨0, _⟩ => rfl)
  have hY : (fun k => val_main_v48 (F := Ideal) x0 x1 x2 x3 (ix2 r k))
      = rowY (fun k => val_main_v43 (F := Ideal) x0 x1 x2 (ix2 r k)) (fun k => x0 (ix2 r k)) (fun k => x3 (ix1 k)) :=
    funext fun k => y_eq x0 x1 x2 x3 r k
  rw [e65, e4, e5, var_eq, dev_eq', hY]
  rfl

/-- The term the reference's run ends at is the row normalisation of the aggregation of `x · W`. -/
theorem result_eq (m : (ℓ : Loc nD τ sig) → Buf (Elt Ideal) ℓ) (c : Dev nD) :
    Cert.ReferenceIdeal.ValueP.res_main_v72 m c
      = layerNorm (aggOf (F := Ideal) (matProd (m ((c.tc : Thread nD τ).loc main_arg0)) (m ((c.tc : Thread nD τ).loc main_arg2)))
            (m ((c.tc : Thread nD τ).loc main_arg1)))
          (m ((c.tc : Thread nD τ).loc main_arg0)) (m ((c.tc : Thread nD τ).loc main_arg3))
          (m ((c.tc : Thread nD τ).loc main_arg4)) (m ((c.tc : Thread nD τ).loc main_arg5)) := by
  rw [val_main_v72_eq, tail_eq, agg_eq, dense_eq]

end Cert.ReferenceIdeal.RefValue

end
-- ==== Proof.KernelHost.lean ====
/-
  The host stretches of the kernel's program, read at the buffers the two kernel regions and the result depend on.

  Before the first region the program computes, from the edge list alone, the edges' sources (with a self loop per node
  appended), their targets, and each edge's weight `deg(src)^(-1/2) · deg(dst)^(-1/2)`; these are the reference's own
  stages of the edge list, operation for operation. The first region writes only its output array, so the three
  survive it. Between the regions the program gathers the first region's output rows at the sources, scales each by its
  edge's weight and sums into the targets: the reference's aggregation `aggOf` applied to whatever the first region
  left. No region and no host operation writes an argument array.
  Everything here holds over any float family: the two programs apply the same operations, and nothing is evaluated.
-/
import proofs.«107247_j75290776699105_1_alg».proof.Proof.Gen.KernelIdeal.Frame
import proofs.«107247_j75290776699105_1_alg».proof.Proof.RefValue
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Before the first region: sources, targets and weights of the edges -/

/-- The edges' sources as the first region finds them. -/
theorem sources_eq (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  rfl

/-- The edges' targets as the first region finds them. -/
theorem targets_eq (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl

set_option maxHeartbeats 4000000 in
/-- The edges' weights as the first region finds them. -/
theorem weights_eq (c : Dev nD) :
    W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results
  (try simp only [TRef.ofBuf, TRef.toBuf, cast_eq])
  rfl

/-- The argument arrays as the first region finds them. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results

/-! ## Between the regions: the aggregation of the first region's output -/

set_option maxHeartbeats 4000000 in
/-- What the second region finds in the aggregated messages' array: the reference's aggregation of what the first
    region left in its output array, over the edge list as launched. -/
theorem agg_eq (c : Dev nD) :
    W5 m ρ c (Proc.devRef .tc main_v43)
      = Cert.ReferenceIdeal.RefValue.aggOf (F := F) (W4 m ρ c (Proc.devRef .tc main_v30)) (m ((c : Thread nD τ).loc main_arg1)) := by
  show StableHlo.after hostOps1 (W4 m ρ c) (Proc.devRef .tc main_v43) = _
  simp only [hostOps1]
  after_results
  rw [W4_of_ne m ρ c main_v3 (by decide), W4_of_ne m ρ c main_v6 (by decide), W4_of_ne m ρ c main_v29 (by decide),
    sources_eq, targets_eq, weights_eq]
  rfl

/-! ## The argument arrays as the second region finds them -/

/-- The residual input, through the first region's input window and the stretch between the regions. -/
theorem W5_arg0 (c : Dev nD) : W5 m ρ c (Proc.devRef .tc main_arg0) = m ((c : Thread nD τ).loc main_arg0) :=
  (((W6_arr m ρ c 1).trans (((dat1 (V5 m ρ) c).arrAt_in 1 rfl _).trans (A_eq1 (V5 m ρ) c 1))).symm).trans (W6_main_arg0 m ρ c)
/-- The bias. -/
theorem W5_arg3 (c : Dev nD) : W5 m ρ c (Proc.devRef .tc main_arg3) = m ((c : Thread nD τ).loc main_arg3) :=
  (((W6_arr m ρ c 2).trans (((dat1 (V5 m ρ) c).arrAt_in 2 rfl _).trans (A_eq1 (V5 m ρ) c 2))).symm).trans (W6_main_arg3 m ρ c)
/-- The scale. -/
theorem W5_arg4 (c : Dev nD) : W5 m ρ c (Proc.devRef .tc main_arg4) = m ((c : Thread nD τ).loc main_arg4) :=
  (((W6_arr m ρ c 3).trans (((dat1 (V5 m ρ) c).arrAt_in 3 rfl _).trans (A_eq1 (V5 m ρ) c 3))).symm).trans (W6_main_arg4 m ρ c)
/-- The shift. -/
theorem W5_arg5 (c : Dev nD) : W5 m ρ c (Proc.devRef .tc main_arg5) = m ((c : Thread nD τ).loc main_arg5) :=
  (((W6_arr m ρ c 4).trans (((dat1 (V5 m ρ) c).arrAt_in 4 rfl _).trans (A_eq1 (V5 m ρ) c 4))).symm).trans (W6_main_arg5 m ρ c)

end Cert.KernelIdeal.HostValue

end
-- ==== Proof.DenseValue.lean ====
/-
  What the first kernel region leaves in its output array: the dense product `x · W` (Proof/Spec.lean `Gcn.matProd`),
  whatever the region finds in its two input arrays.

  The grid has 20 points; point `t` stages rows `5000·t … 5000·t + 4999` of `x` (all 128 columns), the whole of `W`, and
  writes back the same rows of the output. The body multiplies the staged block of `x` by `W` into a zero accumulator
  (the operands' change of float format is the identity on extended reals), so at `(p, j)` of the block it holds
  `∑ k, x (5000·t + p, k) · W (k, j)`: row `5000·t + p` of the product. The 20 row blocks tile the array, so after the
  region the array is the product everywhere.
-/
import proofs.«107247_j75290776699105_1_alg».proof.Proof.Gen.KernelIdeal.Frame
import proofs.«107247_j75290776699105_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseValue

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

/-! ## The product at one index of a block -/

/-- The product's left operand index keeps the output's row, … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand index takes the contraction index as its row, … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at `(p, j)`: the sum over the contracted axis of the staged `x` block's row `p` times
    `W`'s column `j` (the accumulator is zero, the two narrowings are the identity). -/
theorem pay_dense (x0 : FVec Ideal S5000x128 .f32) (x1 : FVec Ideal S128x128 .f32) (p : Fin 5000) (j : Fin 128) :
    k0_pay1 (F := Ideal) x0 x1 (ix2 p j) = ∑ k : Fin 128, x0 (ix2 p k) * x1 (ix2 k j) := by
  unfold k0_pay1
  refine (Ideal.matmul_constant_zero_apply dot_S5000x128_S128x128_S5000x128_1_0_0_1_n_n none _ _ (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  show x0 _ * x1 _ = _
  rw [el, er]

/-! ## The blocks -/

/-- The zero offset of a whole-block access, as a constant function. -/
theorem hz2 : (![0, 0] : Fin 2 → Nat) = fun _ => 0 := funext fun a => by fin_cases a <;> rfl

/-- The printed index maps over the grid: `x`'s block and the output's block are block `t` of their rows, `W`'s the whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 20 points. -/
theorem t_lt (t : Fin cfg0.N) : t.val < 20 := lt_of_lt_of_eq t.isLt N_0

/-- Row `p` of point `t`'s block is row `5000·t + p` of the array. -/
def rowOf (t : Fin cfg0.N) (p : Fin 5000) : Fin 100000 := ⟨t.val * 5000 + p.val, by have := t_lt t; have := p.isLt; omega⟩

/-- The staged block of `x` at `(p, k)` is `x` at `(5000·t + p, k)`. -/
theorem read_x (c : Dev nD) (t : Fin cfg0.N) (p : Fin 5000) (k : Fin 128) :
    (iblk0 V c 0 t : Vec Ideal S5000x128 .f32) (ix2 p k) = V c main_arg0 (ix2 (rowOf t p) k) := by
  obtain ⟨e0, e1, -⟩ := idx_facts t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The staged `W` is `W`. -/
theorem read_w (c : Dev nD) (t : Fin cfg0.N) (k j : Fin 128) :
    (iblk0 V c 1 t : Vec Ideal S128x128 .f32) (ix2 k j) = V c main_arg2 (ix2 k j) := by
  obtain ⟨-, -, e2, e3, -⟩ := idx_facts t
  show V c main_arg2 (((cfg0.win 1).blk t).view.emb (ix2 k j)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- The output block's `(p, j)` is the array's `(5000·t + p, j)`. -/
theorem emb_out (t : Fin cfg0.N) (p : Fin 5000) (j : Fin 128) :
    ((cfg0.win 2).blk t).view.emb (ix2 p j) = ix2 (rowOf t p) j := by
  obtain ⟨-, -, -, -, e4, e5⟩ := idx_facts t
  refine funext fun a => Fin.ext ?_
  match a with
  | ⟨0, _⟩ => show win0_2.index t (0 : Fin 2) * 5000 + 1 * p.val = t.val * 5000 + p.val; omega
  | ⟨1, _⟩ => show win0_2.index t (1 : Fin 2) * 128 + 1 * j.val = j.val; omega

/-- WHAT POINT `t` WRITES BACK is block `t` of the product of the arrays the region finds. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  funext y
  obtain ⟨p, j, rfl⟩ : ∃ (p : Fin 5000) (j : Fin 128), y = ix2 p j := ⟨y 0, y 1, eq_ix2 y⟩
  refine (pay_dense (iblk0 V c 0 t) (iblk0 V c 1 t) p j).trans ?_
  show _ = matProd (V c main_arg0) (V c main_arg2) (((cfg0.win 2).blk t).view.emb (ix2 p j))
  rw [emb_out]
  unfold matProd matProdAt
  exact Finset.sum_congr rfl fun k _ => by rw [read_x V c t p k, read_w V c t k j]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region is the product of the two input arrays as the region found them. -/
theorem final (c : Dev nD) : (dat0 V c).arrAt 2 cfg0.N = matProd (V c main_arg0) (V c main_arg2) :=
  (dat0 V c).arrAt_eq_of_cover 2 _ (fun t _ => flushed_eq V c t) cover

end Cert.KernelIdeal.DenseValue

end
-- ==== Proof.LibRows.lean ====
/-
  Rows of a matrix read at coordinates, for a body that normalises each row by sums over its lanes.
  A lane sum of an `[a, b]` array leaves a vector `[a]`; "keepdims" makes it a column `[a, 1]`, and the column is
  broadcast back over the `b` lanes. Read at `(p, c)` each of these is the operand at row `p`:
  • a vector `[a]` cast to a column `[a, 1]` holds, at `(i, 0)`, the vector's element `i`;
  • a column `[a, 1]` broadcast to `[a, b]` holds, at `(p, c)`, the column's element `(p, 0)`;
  • a vector `[b]` cast to one row `[1, b]` and broadcast to `[a, b]` holds, at `(p, c)`, the vector's element `c`;
  • at the ideal values the lane sum of row `p`, taken from the additive neutral, is the plain sum `∑ k, src (p, k)`.
  Stated over literal extents `a`, `b` and indices built from coordinates, so that each applies by unification.
-/
import Idealize.ShloMosaic.Lib.ValueLayout
import Idealize.ShloMosaic.PureOps.Ideal.Laws

open scoped BigOperators

namespace Cert.LibRows

open Idealize.ShloMosaic Idealize.ShloMosaic.ValueIdx

variable {α : Type}

/-- A vector `[a]` cast to a column `[a, 1]` reads, at `(i, u)`, the vector at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`: the unit axis is read at `0`,
    the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid as the one row of a `[1, b]` array and broadcast over `a` rows reads, at `(p, c)`, the vector
    at `c`. -/
theorem broadcastTo_row_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 (0 : Fin 1) c)

/-- At the ideal values the sum of row `p` over the lanes, accumulated from the additive neutral, is `∑ k, src (p, k)`:
    the reduced index `p` with the lane coordinate `k` put back is `(p, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

end Cert.LibRows
-- ==== Proof.NormValue.lean ====
/-
  What the second kernel region leaves in its output array: the row normalisation (Proof/Spec.lean `Gcn.layerNorm`) of the
  five arrays it finds — the aggregated messages `a`, the residual input `x`, the bias `b`, the scale `γ` and the shift `β`.

  The grid has 20 points; point `t` stages rows `5000·t … 5000·t + 4999` of `a` and of `x`, the three feature vectors whole,
  and writes back the same rows of the output. The body works on each staged row by itself: `y = max (a + b) 0 + x`, the
  row's mean `μ` (a lane sum divided by 128, kept as a column and broadcast back), the deviation `d = y − μ`, the variance
  (the mean of `d · d`), and `d · (σ² + ε)^(−1/2) · γ + β`. Read at `(p, q)` of the block that is `Gcn.rowOut` of row `p` of the
  staged blocks, i.e. of row `5000·t + p` of the arrays. The 20 row blocks tile the output, so after the region the array
  is `Gcn.layerNorm` of the five arrays everywhere.
-/
import proofs.«107247_j75290776699105_1_alg».proof.Proof.Gen.KernelIdeal.Frame
import proofs.«107247_j75290776699105_1_alg».proof.Proof.Spec
import proofs.«107247_j75290776699105_1_alg».proof.Proof.LibRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NormValue

open Cert.KernelIdeal Cert.KernelIdeal.Gen Idealize.ShloMosaic Idealize.ShloMosaic.TcCoe Idealize.SL.Sem
open Idealize.ShloMosaic.Pipeline (Dat)
open Idealize.ShloMosaic.ValueIdx Cert.Gcn Cert.LibRows

/-! ## The body's value, in named pieces -/

/-- Bias, rectifier and residual on a whole staged block: `max (a + b) 0 + x`, the bias laid as one row over all rows. -/
def yBlk (a x : FVec Ideal S5000x128 .f32) (b : FVec Ideal S128 .f32) : FVec Ideal S5000x128 .f32 :=
  addf (maximumf (addf (shapeCast S5000x128 a shapeCasts_S5000x128_S5000x128)
      (broadcastTo S5000x128 (shapeCast S1x128 b shapeCasts_S128_S1x128) broadcasts_S1x128_S5000x128))
    (broadcast S5000x128 (Scalar.ofBits .f32 0x00000000#32))) x

/-- Each row's mean as a column: the lane sum from the additive neutral, divided by the width's word. -/
def meanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits .f32 0x43000000#32))

/-- Each entry's deviation from its row's mean. -/
def devBlk (y : FVec Ideal S5000x128 .f32) : FVec Ideal S5000x128 .f32 :=
  subf y (broadcastTo S5000x128 (meanCol y) broadcasts_S5000x1_S5000x128)

/-- Each row's variance as a column. -/
def varCol (y : FVec Ideal S5000x128 .f32) : FVec Ideal S5000x1 .f32 := meanCol (mulf (devBlk y) (devBlk y))

/-- The body's one stored value is these pieces put together (its operations, in the body's order). -/
theorem pay_pieces (a x : FVec Ideal S5000x128 .f32) (b g s : FVec Ideal S128 .f32) :
    k1_pay1 (F := Ideal) a x b g s
      = addf (mulf (mulf (devBlk (yBlk a x b))
            (broadcastTo S5000x128 (rsqrt (addf (varCol (yBlk a x b)) (broadcast S5000x1 (Scalar.ofBits .f32 0x322BCC77#32))))
              broadcasts_S5000x1_S5000x128))
          (broadcastTo S5000x128 (shapeCast S1x128 g shapeCasts_S128_S1x128) broadcasts_S1x128_S5000x128))
        (broadcastTo S5000x128 (shapeCast S1x128 s shapeCasts_S128_S1x128) broadcasts_S1x128_S5000x128) := rfl

/-- `y` at `(p, k)` is the row expression of row `p`. -/
theorem yBlk_apply (a x : FVec Ideal S5000x128 .f32) (b : FVec Ideal S128 .f32) (p : Fin 5000) (k : Fin 128) :
    yBlk a x b (ix2 p k) = rowY (fun k => a (ix2 p k)) (fun k => x (ix2 p k)) (fun k => b (ix1 k)) k := by
  unfold yBlk
  rw [shapeCast_self]
  show max (a (ix2 p k) + broadcastTo S5000x128 (shapeCast S1x128 b shapeCasts_S128_S1x128) broadcasts_S1x128_S5000x128 (ix2 p k)) _ + x (ix2 p k) = _
  rw [broadcastTo_row_apply b shapeCasts_S128_S1x128 broadcasts_S1x128_S5000x128 p k]
  rfl

/-- The mean column at row `p` is the mean of row `p`. -/
theorem meanCol_apply (y : FVec Ideal S5000x128 .f32) (p : Fin 5000) (u : Fin 1) :
    meanCol y (ix2 p u) = rowMean (fun k => y (ix2 p k)) := by
  unfold meanCol rowMean
  show Ideal.div (shapeCast S5000x1 _ shapeCasts_S5000_S5000x1 (ix2 p u)) _ = _
  rw [shapeCast_a_a1_apply _ shapeCasts_S5000_S5000x1 p u, rowSum_apply y reduces_S5000x128_S5000 (.inl rfl) rfl p]
  rfl

/-- The deviation at `(p, k)`. -/
theorem devBlk_apply (y : FVec Ideal S5000x128 .f32) (p : Fin 5000) (k : Fin 128) :
    devBlk y (ix2 p k) = rowDev (fun k => y (ix2 p k)) k := by
  unfold devBlk rowDev
  show y (ix2 p k) - broadcastTo S5000x128 (meanCol y) broadcasts_S5000x1_S5000x128 (ix2 p k) = _
  rw [broadcastTo_a1_ab_apply (meanCol y) broadcasts_S5000x1_S5000x128 p k, meanCol_apply]

/-- The variance column at row `p` is the variance of row `p`. -/
theorem varCol_apply (y : FVec Ideal S5000x128 .f32) (p : Fin 5000) (u : Fin 1) :
    varCol y (ix2 p u) = rowVar (fun k => y (ix2 p k)) := by
  unfold varCol rowVar
  rw [meanCol_apply]
  exact congrArg rowMean (funext fun k => by
    show devBlk y (ix2 p k) * devBlk y (ix2 p k) = _
    rw [devBlk_apply])

/-- THE BODY'S STORED VALUE at `(p, q)` is the normalised row `p` at lane `q`. -/
theorem pay_norm (a x : FVec Ideal S5000x128 .f32) (b g s : FVec Ideal S128 .f32) (p : Fin 5000) (q : Fin 128) :
    k1_pay1 (F := Ideal) a x b g s (ix2 p q)
      = rowOut (fun k => a (ix2 p k)) (fun k => x (ix2 p k)) (fun k => b (ix1 k)) (g (ix1 q)) (s (ix1 q)) q := by
  rw [pay_pieces]
  show devBlk (yBlk a x b) (ix2 p q)
        * broadcastTo S5000x128 (rsqrt (addf (varCol (yBlk a x b)) (broadcast S5000x1 (Scalar.ofBits .f32 0x322BCC77#32)))) broadcasts_S5000x1_S5000x128 (ix2 p q)
        * broadcastTo S5000x128 (shapeCast S1x128 g shapeCasts_S128_S1x128) broadcasts_S1x128_S5000x128 (ix2 p q)
      + broadcastTo S5000x128 (shapeCast S1x128 s shapeCasts_S128_S1x128) broadcasts_S1x128_S5000x128 (ix2 p q) = _
  rw [broadcastTo_row_apply g shapeCasts_S128_S1x128 broadcasts_S1x128_S5000x128 p q,
    broadcastTo_row_apply s shapeCasts_S128_S1x128 broadcasts_S1x128_S5000x128 p q,
    broadcastTo_a1_ab_apply _ broadcasts_S5000x1_S5000x128 p q, devBlk_apply]
  show _ * Ideal.rsqrt (varCol (yBlk a x b) (ix2 p (0 : Fin 1)) + _) * _ + _ = _
  rw [varCol_apply]
  have hY : (fun k => yBlk a x b (ix2 p k)) = rowY (fun k => a (ix2 p k)) (fun k => x (ix2 p k)) (fun k => b (ix1 k)) :=
    funext fun k => yBlk_apply a x b p k
  rw [hY]
  rfl

/-! ## The blocks -/

variable (V : (c : Dev nD) → (b : Ref sig .tc) → Buf (Elt Ideal) ((c : Thread nD τ).loc b))

/-- The zero offsets of whole-block accesses, as constant functions. -/
theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the output are block `t` of their rows, the three
    feature vectors whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- The grid has 20 points. -/
theorem t_lt (t : Fin cfg1.N) : t.val < 20 := lt_of_lt_of_eq t.isLt N_1

/-- Row `p` of point `t`'s block is row `5000·t + p` of the array. -/
def rowOf (t : Fin cfg1.N) (p : Fin 5000) : Fin 100000 := ⟨t.val * 5000 + p.val, by have := t_lt t; have := p.isLt; omega⟩

/-- The staged block of the aggregated messages at `(p, k)` is the array at `(5000·t + p, k)`. -/
theorem read_a (c : Dev nD) (t : Fin cfg1.N) (p : Fin 5000) (k : Fin 128) :
    (iblk1 V c 0 t : Vec Ideal S5000x128 .f32) (ix2 p k) = V c main_v43 (ix2 (rowOf t p) k) := by
  obtain ⟨e0, e1, -⟩ := idx_facts t
  show V c main_v43 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The staged block of the residual input likewise. -/
theorem read_x (c : Dev nD) (t : Fin cfg1.N) (p : Fin 5000) (k : Fin 128) :
    (iblk1 V c 1 t : Vec Ideal S5000x128 .f32) (ix2 p k) = V c main_arg0 (ix2 (rowOf t p) k) := by
  obtain ⟨-, -, e2, e3, -⟩ := idx_facts t
  show V c main_arg0 (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The staged bias, scale and shift are the whole vectors. -/
theorem read_b (c : Dev nD) (t : Fin cfg1.N) (k : Fin 128) :
    (iblk1 V c 2 t : Vec Ideal S128 .f32) (ix1 k) = V c main_arg3 (ix1 k) := by
  obtain ⟨-, -, -, -, e4, -⟩ := idx_facts t
  show V c main_arg3 (((cfg1.win 2).blk t).view.emb (ix1 k)) = _
  refine congrArg _ (funext fun a => Fin.ext ?_)
  match a with
  | ⟨0, _⟩ => show win1_2.index t (0 : Fin 1) * 128 + 1 * k.val = k.val; omega
theorem read_g (c : Dev nD) (t : Fin cfg1.N) (k : Fin 128) :
    (iblk1 V c 3 t : Vec Ideal S128 .f32) (ix1 k) = V c main_arg4 (ix1 k) := by
  obtain ⟨-, -, -, -, -, e5, -⟩ := idx_facts t
  show V c main_arg4 (((cfg1.win 3).blk t).view.emb (ix1 k)) = _
  refine congrArg _ (funext fun a => Fin.ext ?_)
  match a with
  | ⟨0, _⟩ => show win1_3.index t (0 : Fin 1) * 128 + 1 * k.val = k.val; omega
theorem read_s (c : Dev nD) (t : Fin cfg1.N) (k : Fin 128) :
    (iblk1 V c 4 t : Vec Ideal S128 .f32) (ix1 k) = V c main_arg5 (ix1 k) := by
  obtain ⟨-, -, -, -, -, -, e6, -⟩ := idx_facts t
  show V c main_arg5 (((cfg1.win 4).blk t).view.emb (ix1 k)) = _
  refine congrArg _ (funext fun a => Fin.ext ?_)
  match a with
  | ⟨0, _⟩ => show win1_4.index t (0 : Fin 1) * 128 + 1 * k.val = k.val; omega

/-- The output block's `(p, q)` is the array's `(5000·t + p, q)`. -/
theorem emb_out (t : Fin cfg1.N) (p : Fin 5000) (q : Fin 128) :
    ((cfg1.win 5).blk t).view.emb (ix2 p q) = ix2 (rowOf t p) q := by
  obtain ⟨-, -, -, -, -, -, -, e7, e8⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- WHAT POINT `t` WRITES BACK is block `t` of the row normalisation of the arrays the region finds. -/
theorem flushed_eq (c : Dev nD) (t : Fin cfg1.N) :
    (dat1 V c).flushed 5 t = ((cfg1.win 5).blk t).view.read (Elt Ideal)
      (layerNorm (V c main_v43) (V c main_arg0) (V c main_arg3) (V c main_arg4) (V c main_arg5)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128) hz1]
  funext y
  obtain ⟨p, q, rfl⟩ : ∃ (p : Fin 5000) (q : Fin 128), y = ix2 p q := ⟨y 0, y 1, eq_ix2 y⟩
  refine (pay_norm (iblk1 V c 0 t) (iblk1 V c 1 t) (iblk1 V c 2 t) (iblk1 V c 3 t) (iblk1 V c 4 t) p q).trans ?_
  show _ = layerNorm (V c main_v43) (V c main_arg0) (V c main_arg3) (V c main_arg4) (V c main_arg5) (((cfg1.win 5).blk t).view.emb (ix2 p q))
  rw [emb_out]
  unfold layerNorm
  have ha : (fun k => (iblk1 V c 0 t : Vec Ideal S5000x128 .f32) (ix2 p k)) = fun k => V c main_v43 (ix2 (rowOf t p) k) :=
    funext fun k => read_a V c t p k
  have hx : (fun k => (iblk1 V c 1 t : Vec Ideal S5000x128 .f32) (ix2 p k)) = fun k => V c main_arg0 (ix2 (rowOf t p) k) :=
    funext fun k => read_x V c t p k
  have hb : (fun k => (iblk1 V c 2 t : Vec Ideal S128 .f32) (ix1 k)) = fun k => V c main_arg3 (ix1 k) :=
    funext fun k => read_b V c t k
  rw [ha, hx, hb, read_g V c t q, read_s V c t q]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every index of the array is in the block of the point its row falls in. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, -, e7, e8⟩ := idx_facts t
  have e7' : win1_5.index t (0 : Fin 2) = (i 0).val / 5000 := e7
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region is the row normalisation of the five arrays as the region found them. -/
theorem final (c : Dev nD) : (dat1 V c).arrAt 5 cfg1.N
    = layerNorm (V c main_v43) (V c main_arg0) (V c main_arg3) (V c main_arg4) (V c main_arg5) :=
  (dat1 V c).arrAt_eq_of_cover 5 _ (fun t _ => flushed_eq V c t) cover

end Cert.KernelIdeal.NormValue

end
-- ==== Proof.Claims.lean ====
/-
  The five claims, assembled.

  THE VALUE CLAIM. Both idealized programs end with their result array at ONE function of the launch arrays:
      layerNorm (aggOf (x · W) edges) x b γ β
  — the dense product (Proof/Spec.lean `Gcn.matProd`), the edge aggregation named as one function and never opened
  (Proof/RefValue.lean `aggOf`), and the row normalisation (`Gcn.layerNorm`).
  • The kernel's program: its run ends with the result array at what the second region's write-backs leave
    (Proof/KernelRun.lean); that is the row normalisation of what the region found (Proof/NormValue.lean); it found the
    argument arrays as launched and, in the aggregated messages' array, `aggOf` of what the first region left
    (Proof/KernelHost.lean); and the first region left `x · W` (Proof/DenseValue.lean).
  • The reference: its run ends at its composed term, which read one operation at a time is the same expression
    (Proof/RefValue.lean `result_eq`), over arrays that agree with the kernel's.
  No law of the extended reals beyond reading the two programs is used, so the precondition is never opened.

  THE FRAMES. The two kernel programs' frames are the generated ones; the reference has no kernel, and its frame is its
  run with the result dropped. `preserves` has no conjunct: the ideal pass rewrote nothing.
-/
import proofs.«107247_j75290776699105_1_alg».proof.Proof.KernelRun
import proofs.«107247_j75290776699105_1_alg».proof.Proof.KernelHost
import proofs.«107247_j75290776699105_1_alg».proof.Proof.DenseValue
import proofs.«107247_j75290776699105_1_alg».proof.Proof.NormValue
import proofs.«107247_j75290776699105_1_alg».proof.Proof.RefValue
import proofs.«107247_j75290776699105_1_alg».proof.Proof.Gen.Kernel.Frame
import proofs.«107247_j75290776699105_1_alg».proof.Proof.Gen.Pre_finite_inputs
import proofs.«107247_j75290776699105_1_alg».proof.Defs

set_option maxRecDepth 16384

noncomputable section

namespace Cert.Proof.GcnClaims

open Idealize.ShloMosaic Idealize.ShloMosaic.TcCoe Idealize.SL.Sem Cert.Gcn

/-- What both programs compute, of one device's launch arrays. -/
abbrev result (x : Nodes.Idx → EReal) (e : (⟨Cert.ReferenceIdeal.S2x600000, .i32⟩ : BufTy).Contents (Elt Ideal))
    (w : Wt.Idx → EReal) (b g s : Feat.Idx → EReal) : Nodes.Idx → EReal :=
  layerNorm (Cert.ReferenceIdeal.RefValue.aggOf (F := Ideal) (matProd x w) e) x b g s

section Kernel
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The first region's output array as the stretch between the regions finds it: the dense product of the launch arrays. -/
theorem dense_value (c : Dev Cert.KernelIdeal.nD) :
    W4 m ρ c (Proc.devRef .tc main_v30)
      = matProd (m ((c : Thread nD τ).loc main_arg0)) (m ((c : Thread nD τ).loc main_arg2)) := by
  refine (W4_arr m ρ c 2).trans ?_
  rw [Cert.KernelIdeal.DenseValue.final (V3 m ρ) c]
  show matProd (W3 m ρ c (Proc.devRef .tc main_arg0)) (W3 m ρ c (Proc.devRef .tc main_arg2)) = _
  rw [Cert.KernelIdeal.HostValue.W3_arg0, Cert.KernelIdeal.HostValue.W3_arg2]

/-- The result array after the kernel program's run. -/
theorem kernel_value (c : Dev Cert.KernelIdeal.nD) :
    W6 m ρ c (Proc.devRef .tc main_v44)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W6_arr m ρ c 5).trans ?_
  rw [Cert.KernelIdeal.NormValue.final (V5 m ρ) c]
  show layerNorm (W5 m ρ c (Proc.devRef .tc main_v43)) (W5 m ρ c (Proc.devRef .tc main_arg0)) (W5 m ρ c (Proc.devRef .tc main_arg3))
      (W5 m ρ c (Proc.devRef .tc main_arg4)) (W5 m ρ c (Proc.devRef .tc main_arg5)) = _
  rw [Cert.KernelIdeal.HostValue.agg_eq, Cert.KernelIdeal.HostValue.W5_arg0, Cert.KernelIdeal.HostValue.W5_arg3, Cert.KernelIdeal.HostValue.W5_arg4, Cert.KernelIdeal.HostValue.W5_arg5,
    dense_value]

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `result` of the launch arrays, which agree. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.GenV.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

end Cert.Proof.GcnClaims

end
-- ==== Proof.lean ====
/-
  The certificate of a graph-convolution layer against its jnp reference, over the extended reals.

  Both programs take node features `x : [100000, 128]`, an edge list `[2, 600000]`, a weight `W : [128, 128]` and three
  feature vectors (bias, scale, shift). Each appends a self loop per node, weighs edge `(s, d)` by
  `deg(s)^(-1/2) · deg(d)^(-1/2)`, forms `h = x · W`, sums the weighted rows `h[s]` into the targets `d`, and normalises each
  row of `max (agg + b) 0 + x` by its mean and variance, scaled and shifted. The kernel's program computes `h` and the
  normalisation in two kernel regions of 20 row blocks each (the bias added inside the second), the edge arithmetic on the
  host between them; the reference does everything on the host. At the ideal values the two are one function of the
  launch arrays (Proof/Claims.lean says which, and which module proves each part).
-/
import proofs.«107247_j75290776699105_1_alg».proof.Defs
import proofs.«107247_j75290776699105_1_alg».proof.Proof.Gen.Kernel
import proofs.«107247_j75290776699105_1_alg».proof.Proof.Gen.Kernel.Skeleton
import proofs.«107247_j75290776699105_1_alg».proof.Proof.Gen.Kernel.Launch
import proofs.«107247_j75290776699105_1_alg».proof.Proof.Gen.Kernel.Points
import proofs.«107247_j75290776699105_1_alg».proof.Proof.Gen.Kernel.Frame
import proofs.«107247_j75290776699105_1_alg».proof.Proof.Gen.KernelIdeal
import proofs.«107247_j75290776699105_1_alg».proof.Proof.Gen.KernelIdeal.Skeleton
import proofs.«107247_j75290776699105_1_alg».proof.Proof.Gen.KernelIdeal.Launch
import proofs.«107247_j75290776699105_1_alg».proof.Proof.Gen.KernelIdeal.Points
import proofs.«107247_j75290776699105_1_alg».proof.Proof.Gen.KernelIdeal.Frame
import proofs.«107247_j75290776699105_1_alg».proof.Proof.Gen.ReferenceIdeal
import proofs.«107247_j75290776699105_1_alg».proof.Proof.Gen.Pre_finite_inputs
import proofs.«107247_j75290776699105_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
